-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S2x128 : Shape := ⟨2, ![2, 128]⟩
abbrev S2 : Shape := ⟨1, ![2]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S65536x128 .f32) (main_arg1 : FVec F S2x128 .f32) (main_arg2 : FVec F S2 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S2x128 .f32 := Host.absf main_arg1
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S65536x128 : Shape := ⟨2, ![65536, 128]⟩
abbrev S2x128 : Shape := ⟨2, ![2, 128]⟩
abbrev S2 : Shape := ⟨1, ![2]⟩
abbrev S128x2 : Shape := ⟨2, ![128, 2]⟩
abbrev S1x2 : Shape := ⟨2, ![1, 2]⟩
abbrev S65536x2 : Shape := ⟨2, ![65536, 2]⟩
abbrev S2048x128 : Shape := ⟨2, ![2048, 128]⟩
abbrev S2048x2 : Shape := ⟨2, ![2048, 2]⟩

abbrev nBuf : Space → Nat
  | .hbm => 7
  | .vmem => 6
  | .smem => 0
  | _ => 0

abbrev bufTy : (tb : Table) → Fin (tcTables nBuf tb) → BufTy
  | .hbm, ⟨0, _⟩ => ⟨S65536x128, .f32⟩
  | .hbm, ⟨1, _⟩ => ⟨S2x128, .f32⟩
  | .hbm, ⟨2, _⟩ => ⟨S2, .f32⟩
  | .hbm, ⟨3, _⟩ => ⟨S128x2, .f32⟩
  | .hbm, ⟨4, _⟩ => ⟨S128x2, .bf16⟩
  | .hbm, ⟨5, _⟩ => ⟨S1x2, .f32⟩
  | .hbm, ⟨6, _⟩ => ⟨S65536x2, .f32⟩
  | .local _ .vmem, ⟨0, _⟩ => ⟨S2048x128, .f32⟩
  | .local _ .vmem, ⟨1, _⟩ => ⟨S2048x128, .f32⟩
  | .local _ .vmem, ⟨2, _⟩ => ⟨S128x2, .bf16⟩
  | .local _ .vmem, ⟨3, _⟩ => ⟨S1x2, .f32⟩
  | .local _ .vmem, ⟨4, _⟩ => ⟨S2048x2, .f32⟩
  | .local _ .vmem, ⟨5, _⟩ => ⟨S2048x2, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2x128_S128x2_1_0 : S2x128.Transposes [1, 0] S128x2
  bitsLt_bf16_f32 : FTy.bits .bf16 < FTy.bits .f32
  shapeCasts_S2_S1x2 : S2.ShapeCasts S1x2
  inb_S2048x128_S2048x128_0_0 : ∀ a, (![0, 0] : Fin 2 → Nat) a + S2048x128.size a ≤ S2048x128.size a
  h_S2048x128 : 0 < S2048x128.numel
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  dot_S2048x128_S128x2_S2048x2_1_0_0_1_n_n_wf : DotDims.WF S2048x128 S128x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S128x2.size a
  hwx0_1 : ∀ i : grid0.Coords, EltTy.bits .bf16 = 32 ∨ (Rect.block (s := S128x2) S128x2.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2.size a ≤ S65536x2.size a
  hwx0_3 : ∀ i : grid0.Coords, EltTy.bits .f32 = 32 ∨ (Rect.block (s := S65536x2) S2048x2.size (cc0_transform_3 i) (hinb0_3 i)).WholeWords (EltTy.packing .f32)

variable [Facts₀]

def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x128 : Shape := ⟨2, ![65536, 128]⟩
abbrev S2x128 : Shape := ⟨2, ![2, 128]⟩
abbrev S2 : Shape := ⟨1, ![2]⟩
abbrev S128x2 : Shape := ⟨2, ![128, 2]⟩
abbrev S1x2 : Shape := ⟨2, ![1, 2]⟩
abbrev S65536x2 : Shape := ⟨2, ![65536, 2]⟩
abbrev S4096x128 : Shape := ⟨2, ![4096, 128]⟩
abbrev S4096x2 : Shape := ⟨2, ![4096, 2]⟩

abbrev nBuf : Space → Nat
  | .hbm => 6
  | .vmem => 6
  | .smem => 0
  | _ => 0

abbrev bufTy : (tb : Table) → Fin (tcTables nBuf tb) → BufTy
  | .hbm, ⟨0, _⟩ => ⟨S65536x128, .f32⟩
  | .hbm, ⟨1, _⟩ => ⟨S2x128, .f32⟩
  | .hbm, ⟨2, _⟩ => ⟨S2, .f32⟩
  | .hbm, ⟨3, _⟩ => ⟨S128x2, .f32⟩
  | .hbm, ⟨4, _⟩ => ⟨S1x2, .f32⟩
  | .hbm, ⟨5, _⟩ => ⟨S65536x2, .f32⟩
  | .local _ .vmem, ⟨0, _⟩ => ⟨S4096x128, .f32⟩
  | .local _ .vmem, ⟨1, _⟩ => ⟨S4096x128, .f32⟩
  | .local _ .vmem, ⟨2, _⟩ => ⟨S128x2, .f32⟩
  | .local _ .vmem, ⟨3, _⟩ => ⟨S1x2, .f32⟩
  | .local _ .vmem, ⟨4, _⟩ => ⟨S4096x2, .f32⟩
  | .local _ .vmem, ⟨5, _⟩ => ⟨S4096x2, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2x128_S128x2_1_0 : S2x128.Transposes [1, 0] S128x2
  shapeCasts_S2_S1x2 : S2.ShapeCasts S1x2
  inb_S4096x128_S4096x128_0_0 : ∀ a, (![0, 0] : Fin 2 → Nat) a + S4096x128.size a ≤ S4096x128.size a
  h_S4096x128 : 0 < S4096x128.numel
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  inb_S4096x2_S4096x2_0_0 : ∀ a, (![0, 0] : Fin 2 → Nat) a + S4096x2.size a ≤ S4096x2.size a
  h_S4096x2 : 0 < S4096x2.numel
  dot_S4096x128_S128x2_S4096x2_1_0_0_1_n_n_wf : DotDims.WF S4096x128 S128x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S128x2.size a
  hwx0_1 : ∀ i : grid0.Coords, EltTy.bits .f32 = 32 ∨ (Rect.block (s := S128x2) S128x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x2.size a ≤ S65536x2.size a
  hwx0_3 : ∀ i : grid0.Coords, EltTy.bits .f32 = 32 ∨ (Rect.block (s := S65536x2) S4096x2.size (cc0_transform_3 i) (hinb0_3 i)).WholeWords (EltTy.packing .f32)

variable [Facts₀]

def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Affine.lean ====
/-
  The arithmetic both programs share, stated once over literal shapes with the number of rows left open.

  A dense layer applied to a batch of rows: for a row `r` and an output column `q`,
      out[r, q] = (∑ k < 128, x[r, k] · wT[k, q]) + b[0, q],
  where `wT` is the [128, 2] transposed weight and `b` the [1, 2] bias row (`rows`). Written over the weight
  [2, 128] and the bias [2] as the caller passes them this is `x · wᵀ + b` (`dense`).

  Each output entry depends on ONE row of `x` only, so how the rows are cut into tiles does not matter: a tile of
  `R` rows computes `rows` of those rows, whatever `R` is. Both sums run over the same index set in the same
  order and the two sides multiply and add the same extended reals, so no law of arithmetic is needed to join
  them, and in particular no finiteness.

  `matmul_rows_apply`: a matrix product of an [R, 128] by a [128, 2] operand accumulated into the zero splat,
  read at `(r, q)`, is the sum over the contracted coordinate of the products of the entries (the contraction's
  one-axis index set re-indexed by its coordinate). `tile_apply`: the tile's whole expression at an index —
  product into zero, plus the bias row broadcast over the rows, the two shape casts being identities.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Affine

open Idealize.ShloMosaic Idealize.ShloMosaic.ValueIdx

/-- The layer on `R` rows, over the transposed weight and the bias row. -/
def rows {R : Nat} (x : (⟨2, ![R, 128]⟩ : Shape).Idx → EReal) (wT : (⟨2, ![128, 2]⟩ : Shape).Idx → EReal)
    (b : (⟨2, ![1, 2]⟩ : Shape).Idx → EReal) : (⟨2, ![R, 2]⟩ : Shape).Idx → EReal :=
  fun i => (∑ k : Fin 128, x (ix2 (n0 := R) (i 0) k) * wT (ix2 k (n1 := 2) (i 1))) + b (ix2 (0 : Fin 1) (n1 := 2) (i 1))

/-- `rows` at an index given by its coordinates. -/
theorem rows_ix2 {R : Nat} (x : (⟨2, ![R, 128]⟩ : Shape).Idx → EReal) (wT : (⟨2, ![128, 2]⟩ : Shape).Idx → EReal)
    (b : (⟨2, ![1, 2]⟩ : Shape).Idx → EReal) (r : Fin R) (q : Fin 2) :
    rows x wT b (ix2 r q) = (∑ k : Fin 128, x (ix2 r k) * wT (ix2 k q)) + b (ix2 (0 : Fin 1) q) := rfl

/-- The layer over the weight and the bias as given: `x · wᵀ + b`. -/
def dense {R : Nat} (x : (⟨2, ![R, 128]⟩ : Shape).Idx → EReal) (w : (⟨2, ![2, 128]⟩ : Shape).Idx → EReal)
    (b : (⟨1, ![2]⟩ : Shape).Idx → EReal) : (⟨2, ![R, 2]⟩ : Shape).Idx → EReal :=
  fun i => (∑ k : Fin 128, x (ix2 (n0 := R) (i 0) k) * w (ix2 (n0 := 2) (i 1) k)) + b (ix1 (n := 2) (i 1))

/-- Over the weight transposed and the bias reshaped to a row, `rows` is `dense`. -/
theorem rows_transpose_reshape {R : Nat} (x : (⟨2, ![R, 128]⟩ : Shape).Idx → EReal)
    (w : (⟨2, ![2, 128]⟩ : Shape).Idx → EReal) (b : (⟨1, ![2]⟩ : Shape).Idx → EReal)
    (hT : (⟨2, ![2, 128]⟩ : Shape).Transposes [1, 0] ⟨2, ![128, 2]⟩)
    (hR : (⟨1, ![2]⟩ : Shape).ShapeCasts ⟨2, ![1, 2]⟩) :
    rows x (transpose ⟨2, ![128, 2]⟩ [1, 0] w hT) (shapeCast ⟨2, ![1, 2]⟩ b hR) = dense x w b := by
  funext i
  obtain ⟨r, q, rfl⟩ : ∃ (r : Fin R) (q : Fin 2), i = ix2 r q := ⟨i 0, i 1, eq_ix2 i⟩
  rw [rows_ix2, shapeCast_a_1a_apply]
  show _ = (∑ k : Fin 128, x (ix2 r k) * w (ix2 q k)) + b (ix1 q)
  refine congrArg (· + b (ix1 q)) (Finset.sum_congr rfl fun k _ => ?_)
  rw [transpose_ix2_apply]

/-- A product of an [R, 128] by a [128, 2] operand into the zero accumulator, at `(r, q)`: the sum over the
    contracted coordinate. -/
theorem matmul_rows_apply {R : Nat} {φ₁ φ₂ : FTy}
    (w : DotDims.WF ⟨2, ![R, 128]⟩ ⟨2, ![128, 2]⟩ ⟨2, ![R, 2]⟩ [1] [0] [0] [1] [] [])
    (prec : Option ContractPrecision) (A : FVec Ideal ⟨2, ![R, 128]⟩ φ₁) (B : FVec Ideal ⟨2, ![128, 2]⟩ φ₂)
    (r : Fin R) (q : Fin 2) :
    matmul (⟨[1], [0], [0], [1], [], [], w⟩ : DotDims _ _ _) prec A B (constant ⟨2, ![R, 2]⟩ .f32 0x00000000#32) (ix2 r q)
      = ∑ k : Fin 128, A (ix2 r k) * B (ix2 k q) := by
  show FloatOps.matmul _ prec A B _ (ix2 r q) = _
  rw [Ideal.matmul_constant_zero_apply,
    ← Equiv.sum_comp (contrEquiv1 (⟨[1], [0], [0], [1], [], [], w⟩ : DotDims _ _ _) 128 rfl rfl).symm]
  refine Finset.sum_congr rfl fun k _ => ?_
  have hk := contrEquiv1_symm_val
    (⟨[1], [0], [0], [1], [], [], w⟩ : DotDims ⟨2, ![R, 128]⟩ ⟨2, ![128, 2]⟩ ⟨2, ![R, 2]⟩) 128 rfl rfl k
  have hl : (⟨[1], [0], [0], [1], [], [], w⟩ : DotDims ⟨2, ![R, 128]⟩ ⟨2, ![128, 2]⟩ ⟨2, ![R, 2]⟩).lhsIdx (ix2 r q)
      ((contrEquiv1 _ 128 rfl rfl).symm k) = ix2 r k := by
    funext ax; apply Fin.ext
    match ax with
    | ⟨0, _⟩ => simp [DotDims.lhsIdx]; rfl
    | ⟨1, _⟩ => simp [DotDims.lhsIdx]; exact hk
  have hr : (⟨[1], [0], [0], [1], [], [], w⟩ : DotDims ⟨2, ![R, 128]⟩ ⟨2, ![128, 2]⟩ ⟨2, ![R, 2]⟩).rhsIdx (ix2 r q)
      ((contrEquiv1 _ 128 rfl rfl).symm k) = ix2 k q := by
    funext ax; apply Fin.ext
    match ax with
    | ⟨0, _⟩ => simp [DotDims.rhsIdx]; exact hk
    | ⟨1, _⟩ => simp [DotDims.rhsIdx]; rfl
  rw [hl, hr]

/-- A tile's expression at `(r, q)`: the product into the zero accumulator plus the bias row broadcast over the
    tile's rows, the weight and the bias each passed through a shape cast to its own shape. -/
theorem tile_apply {R : Nat} {φ₁ φ₂ : FTy}
    (w : DotDims.WF ⟨2, ![R, 128]⟩ ⟨2, ![128, 2]⟩ ⟨2, ![R, 2]⟩ [1] [0] [0] [1] [] [])
    (prec : Option ContractPrecision)
    (hw : (⟨2, ![128, 2]⟩ : Shape).ShapeCasts ⟨2, ![128, 2]⟩) (hb : (⟨2, ![1, 2]⟩ : Shape).ShapeCasts ⟨2, ![1, 2]⟩)
    (hbc : (⟨2, ![1, 2]⟩ : Shape).Broadcasts ⟨2, ![R, 2]⟩)
    (x : FVec Ideal ⟨2, ![R, 128]⟩ φ₁) (wT : FVec Ideal ⟨2, ![128, 2]⟩ φ₂) (b : FVec Ideal ⟨2, ![1, 2]⟩ .f32)
    (r : Fin R) (q : Fin 2) :
    addf (matmul (⟨[1], [0], [0], [1], [], [], w⟩ : DotDims _ _ _) prec x (shapeCast ⟨2, ![128, 2]⟩ wT hw)
        (constant ⟨2, ![R, 2]⟩ .f32 0x00000000#32))
      (broadcastTo ⟨2, ![R, 2]⟩ (shapeCast ⟨2, ![1, 2]⟩ b hb) hbc) (ix2 r q)
      = rows x wT b (ix2 r q) := by
  rw [addf_apply, shapeCast_self, shapeCast_self, matmul_rows_apply, broadcastTo_1b_ab_apply, rows_ix2]

end Cert.Affine

end
-- ==== Proof.KernelWhole.lean ====
/-
  The program's result array as ONE function of the three arguments.

  The call runs over 32 grid points; point `t` stages rows 2048·t … 2048·t + 2047 of the batch `x`, the whole
  transposed weight and the whole bias row, and stores the tile
      (x rows · wT) + bias row broadcast over the 2048 rows
  into rows 2048·t … of the result. A change of float format, where the tile or the host makes one on the way, is
  the identity on extended reals, and the product runs into a zero accumulator, so the tile's entry (p, q) is
  (∑ k, x[2048·t + p, k] · wT[k, q]) + b[0, q]: it depends on row 2048·t + p of `x` alone, and is the layer's entry
  at that row (`tile_rows`). The 32 tiles tile the 65536 rows (`cover`), so the result array ends holding the layer
  on all rows (`final`); the host wrote the transposed weight and the reshaped bias before the call (`weight_host`,
  `bias_host`), which makes it `x · wᵀ + b`.
-/
import proofs.«144738_g2000106729608553_pallasbulk_170_2_alg».proof.Proof.Gen.KernelIdeal.Value
import proofs.«144738_g2000106729608553_pallasbulk_170_2_alg».proof.Proof.Affine
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One tile -/

/-- What a tile stores, at row `p` and column `q` of the tile: the layer on the tile's 2048 rows. -/
theorem tile_eq (x0 : Vec Ideal S2048x128 .f32) (x1 : Vec Ideal S128x2 .bf16) (x2 : Vec Ideal S1x2 .f32)
    (p : Fin 2048) (q : Fin 2) :
    k0_pay1 x0 x1 x2 (ix2 p q) = Cert.Affine.rows (R := 2048) x0 x1 x2 (ix2 p q) := by
  unfold k0_pay1
  exact Cert.Affine.tile_apply dot_S2048x128_S128x2_S2048x2_1_0_0_1_n_n_wf _
    shapeCasts_S128x2_S128x2 shapeCasts_S1x2_S1x2 broadcasts_S1x2_S2048x2 _ x1 x2 p q

/-- The same against whole arrays `X`, `W`, `B`: if the tile's row `p` is row `r` of `X` and the tile's weight
    and bias are `W` and `B`, the tile's entry `(p, q)` is the layer's entry `(r, q)`. Only row `r` of `X` is read. -/
theorem tile_rows (X : S65536x128.Idx → EReal) (W : S128x2.Idx → EReal) (B : S1x2.Idx → EReal)
    (x0 : Vec Ideal S2048x128 .f32) (x1 : Vec Ideal S128x2 .bf16) (x2 : Vec Ideal S1x2 .f32)
    (p : Fin 2048) (q : Fin 2) (r : Fin 65536)
    (h0 : ∀ k : Fin 128, x0 (ix2 p k) = X (ix2 r k)) (h1 : ∀ k : Fin 128, x1 (ix2 k q) = W (ix2 k q))
    (h2 : x2 (ix2 (0 : Fin 1) q) = B (ix2 (0 : Fin 1) q)) :
    k0_pay1 x0 x1 x2 (ix2 p q) = Cert.Affine.rows (R := 65536) X W B (ix2 r q) := by
  rw [tile_eq, Cert.Affine.rows_ix2, Cert.Affine.rows_ix2, h2]
  exact congrArg (· + B (ix2 (0 : Fin 1) q)) (Finset.sum_congr rfl fun k _ => by rw [h0 k, h1 k])

/-! ## The windows' blocks as parts of the arrays -/

/-- The printed index maps over the 32 grid points: the batch window and the result window move together along
    the rows, one tile per point; the weight and the bias windows stay at block (0, 0). -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 31 ∧ win0_3.index t (1 : Fin 2) = 0 :=
  (by decide +kernel : ∀ t : Fin grid0.N, _)

/-- Every tile of rows is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- The batch window's block at point `t` is rows `2048·(t's tile) … + 2047` of the batch. -/
theorem batch_block (c : Dev nD) (t : Fin cfg0.N) (p : Fin 2048) (k : Fin 128) (r : Fin 65536)
    (hr : r.val = win0_3.index t (0 : Fin 2) * 2048 + p.val) :
    (iblk m c 0 t : Vec Ideal S2048x128 .f32) (ix2 p k) = (V m c main_arg0 : S65536x128.Idx → EReal) (ix2 r k) := by
  obtain ⟨e00, e01, -⟩ := idx_facts t
  unfold iblk
  rw [View.read_apply]
  show V m c main_arg0 _ = V m c main_arg0 _
  refine congrArg _ (funext fun a => Fin.ext ?_)
  match a with
  | ⟨0, _⟩ => show win0_0.index t (0 : Fin 2) * 2048 + 1 * p.val = r.val; omega
  | ⟨1, _⟩ => show win0_0.index t (1 : Fin 2) * 128 + 1 * k.val = k.val; omega

/-- The weight window's block at every point is the whole transposed weight. -/
theorem weight_block (c : Dev nD) (t : Fin cfg0.N) (k : Fin 128) (q : Fin 2) :
    (iblk m c 1 t : Vec Ideal S128x2 .bf16) (ix2 k q) = (V m c main_v1 : S128x2.Idx → EReal) (ix2 k q) := by
  obtain ⟨-, -, e10, e11, -⟩ := idx_facts t
  unfold iblk
  rw [View.read_apply]
  show V m c main_v1 _ = V m c main_v1 _
  refine congrArg _ (funext fun a => Fin.ext ?_)
  match a with
  | ⟨0, _⟩ => show win0_1.index t (0 : Fin 2) * 128 + 1 * k.val = k.val; omega
  | ⟨1, _⟩ => show win0_1.index t (1 : Fin 2) * 2 + 1 * q.val = q.val; omega

/-- The bias window's block at every point is the whole bias row. -/
theorem bias_block (c : Dev nD) (t : Fin cfg0.N) (q : Fin 2) :
    (iblk m c 2 t : Vec Ideal S1x2 .f32) (ix2 (0 : Fin 1) q) = (V m c main_v2 : S1x2.Idx → EReal) (ix2 (0 : Fin 1) q) := by
  obtain ⟨-, -, -, -, e20, e21, -⟩ := idx_facts t
  unfold iblk
  rw [View.read_apply]
  show V m c main_v2 _ = V m c main_v2 _
  refine congrArg _ (funext fun a => Fin.ext ?_)
  match a with
  | ⟨0, _⟩ => show win0_2.index t (0 : Fin 2) * 1 + 1 * 0 = 0; omega
  | ⟨1, _⟩ => show win0_2.index t (1 : Fin 2) * 2 + 1 * q.val = q.val; omega

/-! ## The result array -/

/-- What the result array ends holding: the layer on all 65536 rows, over the arrays as the call finds them. -/
def G (c : Dev nD) : S65536x2.Idx → EReal :=
  Cert.Affine.rows (R := 65536) (V m c main_arg0) (V m c main_v1) (V m c main_v2)

/-- What point `t` writes back is its block of `G`. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz]
  simp only [View.ld_unit_zero (S := S2048x128) hz, View.ld_unit_zero (S := S128x2) hz, View.ld_unit_zero (S := S1x2) hz]
  obtain ⟨-, -, -, -, -, -, e30, e31⟩ := idx_facts t
  funext j
  obtain ⟨p, q, rfl⟩ : ∃ (p : Fin 2048) (q : Fin 2), j = ix2 p q := ⟨j 0, j 1, eq_ix2 j⟩
  have hp : p.val < 2048 := p.isLt
  -- the array index of the tile's entry (p, q)
  have hi : ((cfg0.win 3).blk t).view.emb (ix2 p q)
      = ix2 (⟨win0_3.index t (0 : Fin 2) * 2048 + p.val, by omega⟩ : Fin 65536) q := by
    funext a; apply Fin.ext
    match a with
    | ⟨0, _⟩ => show win0_3.index t (0 : Fin 2) * 2048 + 1 * p.val = win0_3.index t (0 : Fin 2) * 2048 + p.val; omega
    | ⟨1, _⟩ => show win0_3.index t (1 : Fin 2) * 2 + 1 * q.val = q.val; omega
  show k0_pay1 (iblk m c 0 t) (iblk m c 1 t) (iblk m c 2 t) (ix2 p q) = G m c (((cfg0.win 3).blk t).view.emb (ix2 p q))
  rw [hi]
  exact tile_rows (V m c main_arg0) (V m c main_v1) (V m c main_v2) (iblk m c 0 t) (iblk m c 1 t) (iblk m c 2 t) p q _
    (fun k => batch_block m c t p k _ rfl) (fun k => weight_block m c t k q) (bias_block m c t q)

/-- An index of the result array is in point `t`'s block iff each coordinate is in the block's range on its axis. -/
theorem mem_blk (t : Fin cfg0.N) (i : S65536x2.Idx) :
    i ∈ ((cfg0.win 3).blk t).view.set ↔ ∀ a : Fin 2, win0_3.index t a * S2048x2.size a ≤ (i a).val ∧ (i a).val < win0_3.index t a * S2048x2.size a + S2048x2.size a := by
  show i ∈ ((View.whole main_v3).slice (win0_3.rect t)).set ↔ _
  rw [View.set_slice_whole, Rect.mem_set_unit]
  exact Iff.rfl

/-- The tiles cover the result array: row `r` is in tile `r / 2048`. -/
theorem cover (i : S65536x2.Idx) : ∃ t : Fin cfg0.N, (cfg0.win 3).flush t = true ∧ i ∈ ((cfg0.win 3).blk t).view.set := by
  have hi0 : (i 0).val < 65536 := (i 0).isLt
  have hi1 : (i 1).val < 2 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 2 ≤ (i 1).val ∧ (i 1).val < win0_3.index t (1 : Fin 2) * 2 + 2; omega

/-! ## The arrays the call finds: what the host wrote before it -/

/-- The weight window's array is the weight transposed (a change of float format on the way, where the host makes
    one, changes no extended real). -/
theorem weight_host (c : Dev nD) : @Eq (S128x2.Idx → EReal) (V m c main_v1)
    (transpose S128x2 [1, 0] (m ((c : Thread nD τ).loc main_arg1)) transposes_S2x128_S128x2_1_0) := by
  dsimp only [Gen.V, Gen.hostOps0]; after_results <;> rfl

/-- The bias window's array is the bias reshaped to one row. -/
theorem bias_host (c : Dev nD) : @Eq (S1x2.Idx → EReal) (V m c main_v2)
    (shapeCast S1x2 (m ((c : Thread nD τ).loc main_arg2)) shapeCasts_S2_S1x2) := by
  dsimp only [Gen.V, Gen.hostOps0]; after_results; rfl

/-- THE RESULT ARRAY after the run: `x · wᵀ + b` of the three arguments as launched. -/
theorem final (c : Dev nD) : (dats m 0 c).arrAt 3 cfg0.N
    = Cert.Affine.dense (R := 65536) (m ((c : Thread nD τ).loc main_arg0)) (m ((c : Thread nD τ).loc main_arg1))
        (m ((c : Thread nD τ).loc main_arg2)) := by
  rw [(dats m 0 c).arrAt_eq_of_cover 3 (G m c) (fun t _ => flushed_eq m c t) cover]
  unfold G
  rw [weight_host, bias_host, V_main_arg0]
  exact Cert.Affine.rows_transpose_reshape _ _ _ transposes_S2x128_S128x2_1_0 shapeCasts_S2_S1x2

/-- The run, read: the result array at `x · wᵀ + b`, the arguments unchanged. -/
theorem run : θ_run defs (onTc (τ := τ) (main (F := Ideal))) ⟨m, fun _ => 0, ρ⟩ fun r => ∀ c : Dev nD,
      r.2.mem ((c : Thread nD τ).loc main_v3) = Cert.Affine.dense (R := 65536) (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.ReferenceWhole.lean ====
/-
  The program's result array as ONE function of the three arguments.

  The call runs over 16 grid points; point `t` stages rows 4096·t … 4096·t + 4095 of the batch `x`, the whole
  transposed weight and the whole bias row, and stores the tile
      (x rows · wT) + bias row broadcast over the 4096 rows
  into rows 4096·t … of the result. A change of float format, where the tile or the host makes one on the way, is
  the identity on extended reals, and the product runs into a zero accumulator, so the tile's entry (p, q) is
  (∑ k, x[4096·t + p, k] · wT[k, q]) + b[0, q]: it depends on row 4096·t + p of `x` alone, and is the layer's entry
  at that row (`tile_rows`). The 16 tiles tile the 65536 rows (`cover`), so the result array ends holding the layer
  on all rows (`final`); the host wrote the transposed weight and the reshaped bias before the call (`weight_host`,
  `bias_host`), which makes it `x · wᵀ + b`.
-/
import proofs.«144738_g2000106729608553_pallasbulk_170_2_alg».proof.Proof.Gen.ReferenceIdeal.Value
import proofs.«144738_g2000106729608553_pallasbulk_170_2_alg».proof.Proof.Affine
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One tile -/

/-- What a tile stores, at row `p` and column `q` of the tile: the layer on the tile's 4096 rows. -/
theorem tile_eq (x0 : Vec Ideal S4096x128 .f32) (x1 : Vec Ideal S128x2 .f32) (x2 : Vec Ideal S1x2 .f32)
    (p : Fin 4096) (q : Fin 2) :
    k0_pay1 x0 x1 x2 (ix2 p q) = Cert.Affine.rows (R := 4096) x0 x1 x2 (ix2 p q) := by
  unfold k0_pay1
  exact Cert.Affine.tile_apply dot_S4096x128_S128x2_S4096x2_1_0_0_1_n_n_wf _
    shapeCasts_S128x2_S128x2 shapeCasts_S1x2_S1x2 broadcasts_S1x2_S4096x2 _ x1 x2 p q

/-- The same against whole arrays `X`, `W`, `B`: if the tile's row `p` is row `r` of `X` and the tile's weight
    and bias are `W` and `B`, the tile's entry `(p, q)` is the layer's entry `(r, q)`. Only row `r` of `X` is read. -/
theorem tile_rows (X : S65536x128.Idx → EReal) (W : S128x2.Idx → EReal) (B : S1x2.Idx → EReal)
    (x0 : Vec Ideal S4096x128 .f32) (x1 : Vec Ideal S128x2 .f32) (x2 : Vec Ideal S1x2 .f32)
    (p : Fin 4096) (q : Fin 2) (r : Fin 65536)
    (h0 : ∀ k : Fin 128, x0 (ix2 p k) = X (ix2 r k)) (h1 : ∀ k : Fin 128, x1 (ix2 k q) = W (ix2 k q))
    (h2 : x2 (ix2 (0 : Fin 1) q) = B (ix2 (0 : Fin 1) q)) :
    k0_pay1 x0 x1 x2 (ix2 p q) = Cert.Affine.rows (R := 65536) X W B (ix2 r q) := by
  rw [tile_eq, Cert.Affine.rows_ix2, Cert.Affine.rows_ix2, h2]
  exact congrArg (· + B (ix2 (0 : Fin 1) q)) (Finset.sum_congr rfl fun k _ => by rw [h0 k, h1 k])

/-! ## The windows' blocks as parts of the arrays -/

/-- The printed index maps over the 16 grid points: the batch window and the result window move together along
    the rows, one tile per point; the weight and the bias windows stay at block (0, 0). -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 15 ∧ win0_3.index t (1 : Fin 2) = 0 :=
  (by decide +kernel : ∀ t : Fin grid0.N, _)

/-- Every tile of rows is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-- The batch window's block at point `t` is rows `4096·(t's tile) … + 4095` of the batch. -/
theorem batch_block (c : Dev nD) (t : Fin cfg0.N) (p : Fin 4096) (k : Fin 128) (r : Fin 65536)
    (hr : r.val = win0_3.index t (0 : Fin 2) * 4096 + p.val) :
    (iblk m c 0 t : Vec Ideal S4096x128 .f32) (ix2 p k) = (V m c main_arg0 : S65536x128.Idx → EReal) (ix2 r k) := by
  obtain ⟨e00, e01, -⟩ := idx_facts t
  unfold iblk
  rw [View.read_apply]
  show V m c main_arg0 _ = V m c main_arg0 _
  refine congrArg _ (funext fun a => Fin.ext ?_)
  match a with
  | ⟨0, _⟩ => show win0_0.index t (0 : Fin 2) * 4096 + 1 * p.val = r.val; omega
  | ⟨1, _⟩ => show win0_0.index t (1 : Fin 2) * 128 + 1 * k.val = k.val; omega

/-- The weight window's block at every point is the whole transposed weight. -/
theorem weight_block (c : Dev nD) (t : Fin cfg0.N) (k : Fin 128) (q : Fin 2) :
    (iblk m c 1 t : Vec Ideal S128x2 .f32) (ix2 k q) = (V m c main_v0 : S128x2.Idx → EReal) (ix2 k q) := by
  obtain ⟨-, -, e10, e11, -⟩ := idx_facts t
  unfold iblk
  rw [View.read_apply]
  show V m c main_v0 _ = V m c main_v0 _
  refine congrArg _ (funext fun a => Fin.ext ?_)
  match a with
  | ⟨0, _⟩ => show win0_1.index t (0 : Fin 2) * 128 + 1 * k.val = k.val; omega
  | ⟨1, _⟩ => show win0_1.index t (1 : Fin 2) * 2 + 1 * q.val = q.val; omega

/-- The bias window's block at every point is the whole bias row. -/
theorem bias_block (c : Dev nD) (t : Fin cfg0.N) (q : Fin 2) :
    (iblk m c 2 t : Vec Ideal S1x2 .f32) (ix2 (0 : Fin 1) q) = (V m c main_v1 : S1x2.Idx → EReal) (ix2 (0 : Fin 1) q) := by
  obtain ⟨-, -, -, -, e20, e21, -⟩ := idx_facts t
  unfold iblk
  rw [View.read_apply]
  show V m c main_v1 _ = V m c main_v1 _
  refine congrArg _ (funext fun a => Fin.ext ?_)
  match a with
  | ⟨0, _⟩ => show win0_2.index t (0 : Fin 2) * 1 + 1 * 0 = 0; omega
  | ⟨1, _⟩ => show win0_2.index t (1 : Fin 2) * 2 + 1 * q.val = q.val; omega

/-! ## The result array -/

/-- What the result array ends holding: the layer on all 65536 rows, over the arrays as the call finds them. -/
def G (c : Dev nD) : S65536x2.Idx → EReal :=
  Cert.Affine.rows (R := 65536) (V m c main_arg0) (V m c main_v0) (V m c main_v1)

/-- What point `t` writes back is its block of `G`. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz]
  simp only [View.ld_unit_zero (S := S4096x128) hz, View.ld_unit_zero (S := S128x2) hz, View.ld_unit_zero (S := S1x2) hz]
  obtain ⟨-, -, -, -, -, -, e30, e31⟩ := idx_facts t
  funext j
  obtain ⟨p, q, rfl⟩ : ∃ (p : Fin 4096) (q : Fin 2), j = ix2 p q := ⟨j 0, j 1, eq_ix2 j⟩
  have hp : p.val < 4096 := p.isLt
  -- the array index of the tile's entry (p, q)
  have hi : ((cfg0.win 3).blk t).view.emb (ix2 p q)
      = ix2 (⟨win0_3.index t (0 : Fin 2) * 4096 + p.val, by omega⟩ : Fin 65536) q := by
    funext a; apply Fin.ext
    match a with
    | ⟨0, _⟩ => show win0_3.index t (0 : Fin 2) * 4096 + 1 * p.val = win0_3.index t (0 : Fin 2) * 4096 + p.val; omega
    | ⟨1, _⟩ => show win0_3.index t (1 : Fin 2) * 2 + 1 * q.val = q.val; omega
  show k0_pay1 (iblk m c 0 t) (iblk m c 1 t) (iblk m c 2 t) (ix2 p q) = G m c (((cfg0.win 3).blk t).view.emb (ix2 p q))
  rw [hi]
  exact tile_rows (V m c main_arg0) (V m c main_v0) (V m c main_v1) (iblk m c 0 t) (iblk m c 1 t) (iblk m c 2 t) p q _
    (fun k => batch_block m c t p k _ rfl) (fun k => weight_block m c t k q) (bias_block m c t q)

/-- An index of the result array is in point `t`'s block iff each coordinate is in the block's range on its axis. -/
theorem mem_blk (t : Fin cfg0.N) (i : S65536x2.Idx) :
    i ∈ ((cfg0.win 3).blk t).view.set ↔ ∀ a : Fin 2, win0_3.index t a * S4096x2.size a ≤ (i a).val ∧ (i a).val < win0_3.index t a * S4096x2.size a + S4096x2.size a := by
  show i ∈ ((View.whole main_v2).slice (win0_3.rect t)).set ↔ _
  rw [View.set_slice_whole, Rect.mem_set_unit]
  exact Iff.rfl

/-- The tiles cover the result array: row `r` is in tile `r / 4096`. -/
theorem cover (i : S65536x2.Idx) : ∃ t : Fin cfg0.N, (cfg0.win 3).flush t = true ∧ i ∈ ((cfg0.win 3).blk t).view.set := by
  have hi0 : (i 0).val < 65536 := (i 0).isLt
  have hi1 : (i 1).val < 2 := (i 1).isLt
  obtain ⟨t, ht⟩ := idx_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 2 ≤ (i 1).val ∧ (i 1).val < win0_3.index t (1 : Fin 2) * 2 + 2; omega

/-! ## The arrays the call finds: what the host wrote before it -/

/-- The weight window's array is the weight transposed (a change of float format on the way, where the host makes
    one, changes no extended real). -/
theorem weight_host (c : Dev nD) : @Eq (S128x2.Idx → EReal) (V m c main_v0)
    (transpose S128x2 [1, 0] (m ((c : Thread nD τ).loc main_arg1)) transposes_S2x128_S128x2_1_0) := by
  dsimp only [Gen.V, Gen.hostOps0]; after_results <;> rfl

/-- The bias window's array is the bias reshaped to one row. -/
theorem bias_host (c : Dev nD) : @Eq (S1x2.Idx → EReal) (V m c main_v1)
    (shapeCast S1x2 (m ((c : Thread nD τ).loc main_arg2)) shapeCasts_S2_S1x2) := by
  dsimp only [Gen.V, Gen.hostOps0]; after_results; rfl

/-- THE RESULT ARRAY after the run: `x · wᵀ + b` of the three arguments as launched. -/
theorem final (c : Dev nD) : (dats m 0 c).arrAt 3 cfg0.N
    = Cert.Affine.dense (R := 65536) (m ((c : Thread nD τ).loc main_arg0)) (m ((c : Thread nD τ).loc main_arg1))
        (m ((c : Thread nD τ).loc main_arg2)) := by
  rw [(dats m 0 c).arrAt_eq_of_cover 3 (G m c) (fun t _ => flushed_eq m c t) cover]
  unfold G
  rw [weight_host, bias_host, V_main_arg0]
  exact Cert.Affine.rows_transpose_reshape _ _ _ transposes_S2x128_S128x2_1_0 shapeCasts_S2_S1x2

/-- The run, read: the result array at `x · wᵀ + b`, the arguments unchanged. -/
theorem run : θ_run defs (onTc (τ := τ) (main (F := Ideal))) ⟨m, fun _ => 0, ρ⟩ fun r => ∀ c : Dev nD,
      r.2.mem ((c : Thread nD τ).loc main_v2) = Cert.Affine.dense (R := 65536) (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.ReferenceIdeal.Whole

end
-- ==== Proof.lean ====
/-
  A dense layer over a batch: `y = x · wᵀ + b` for `x` of 65536 rows by 128 features, a weight `w` of 2 by 128 and a
  bias `b` of 2, computed by two tiled calls.

  The kernel cuts the batch into 32 tiles of 2048 rows, narrows each tile and the transposed weight to bf16 and
  takes one matrix product per tile into a zero accumulator, then adds the bias row. The reference cuts the batch
  into 16 tiles of 4096 rows and takes the product at full width. Over the extended reals a change of float format is
  the identity and a matrix product into zero is the plain sum of products, so each program's tile holds, at row `p`
  and column `q`, the number `(∑ k, x[row, k] · w[q, k]) + b[q]` for the batch row the tile's row `p` is. An entry
  depends on its own batch row only, so the tile height does not enter: both result arrays are the one function
  `Cert.Affine.dense` of the three arguments (Proof/KernelWhole.lean and Proof/ReferenceWhole.lean, each over its
  program's run; Proof/Affine.lean has the arithmetic). The two sums run over the same index set with the same terms,
  so no law of the extended reals joins them and the inputs' finiteness is not used.

  The three frames are the programs' runs with the result dropped; the idealization rewrote nothing, so there is
  nothing to preserve beyond the program's own text.
-/
import proofs.«144738_g2000106729608553_pallasbulk_170_2_alg».proof.Defs
import proofs.«144738_g2000106729608553_pallasbulk_170_2_alg».proof.Proof.Gen.Kernel
import proofs.«144738_g2000106729608553_pallasbulk_170_2_alg».proof.Proof.Gen.Kernel.Skeleton
import proofs.«144738_g2000106729608553_pallasbulk_170_2_alg».proof.Proof.Gen.Kernel.Launch
import proofs.«144738_g2000106729608553_pallasbulk_170_2_alg».proof.Proof.Gen.Kernel.Points
import proofs.«144738_g2000106729608553_pallasbulk_170_2_alg».proof.Proof.Gen.Kernel.Frame
import proofs.«144738_g2000106729608553_pallasbulk_170_2_alg».proof.Proof.Gen.KernelIdeal
import proofs.«144738_g2000106729608553_pallasbulk_170_2_alg».proof.Proof.Gen.KernelIdeal.Skeleton
import proofs.«144738_g2000106729608553_pallasbulk_170_2_alg».proof.Proof.Gen.KernelIdeal.Launch
import proofs.«144738_g2000106729608553_pallasbulk_170_2_alg».proof.Proof.Gen.KernelIdeal.Points
import proofs.«144738_g2000106729608553_pallasbulk_170_2_alg».proof.Proof.Gen.KernelIdeal.Frame
import proofs.«144738_g2000106729608553_pallasbulk_170_2_alg».proof.Proof.Gen.ReferenceIdeal
import proofs.«144738_g2000106729608553_pallasbulk_170_2_alg».proof.Proof.Gen.ReferenceIdeal.Skeleton
import proofs.«144738_g2000106729608553_pallasbulk_170_2_alg».proof.Proof.Gen.ReferenceIdeal.Launch
import proofs.«144738_g2000106729608553_pallasbulk_170_2_alg».proof.Proof.Gen.ReferenceIdeal.Points
import proofs.«144738_g2000106729608553_pallasbulk_170_2_alg».proof.Proof.Gen.ReferenceIdeal.Frame
import proofs.«144738_g2000106729608553_pallasbulk_170_2_alg».proof.Proof.Gen.Pre_finite_inputs
import proofs.«144738_g2000106729608553_pallasbulk_170_2_alg».proof.Proof.KernelWhole
import proofs.«144738_g2000106729608553_pallasbulk_170_2_alg».proof.Proof.ReferenceWhole
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference read over the extended reals. -/
theorem frame_reference_ideal : Cert.frame_ReferenceIdeal := fun m ρ _ => Cert.ReferenceIdeal.Gen.frame m ρ

/-- Both result arrays are `x · wᵀ + b` of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun r h c => ⟨(h c).1.trans ?_, (h c).2⟩)
    (Cert.ReferenceIdeal.Whole.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
